-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x64x64 : Shape := ⟨3, ![65536, 64, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x64x64 : S_.BroadcastsInDim S65536x64x64 (![] : Fin 0 → Fin S65536x64x64.rank)
  reducesTo_S65536x64x64_S_d0_1_2 : S65536x64x64.ReducesTo [0, 1, 2] S_

variable [Facts]

def fn {F : FTy → Type} [FloatOps F] (main_arg0 : FVec F S65536x64 .f32) (main_arg1 : FVec F S65536x64x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x64x64 .f32 := Host.absf main_arg1
  let main_cst_0 : FVec F S_ .f32 := constant S_ .f32 0x7F800000#32
  let main_v5 : FVec F S65536x64x64 .f32 := broadcastInDim S65536x64x64 ![] bcast_S_S65536x64x64 main_cst_0
  let main_v6 : IVec S65536x64x64 1 := cmpf .olt main_v4 main_v5
  let main_c_1 : IVec S_ 1 := constantI S_ 1 1#1
  let main_v7 : IVec S_ 1 := (fun x v => Host.reduce IntOp.andi x v reducesTo_S65536x64x64_S_d0_1_2 h_S_) main_v6 main_c_1
  let main_v8 : IVec S_ 1 := andi main_v3 main_v7
  main_v8
-- ==== Kernel.lean ====
abbrev S65536x64 : Shape := ⟨2, ![65536, 64]⟩
abbrev S65536x64x64 : Shape := ⟨3, ![65536, 64, 64]⟩
abbrev S1x64 : Shape := ⟨2, ![1, 64]⟩
abbrev S512x64 : Shape := ⟨2, ![512, 64]⟩
abbrev S512x64x64 : Shape := ⟨3, ![512, 64, 64]⟩
abbrev S512x1x64 : Shape := ⟨3, ![512, 1, 64]⟩
abbrev S64 : Shape := ⟨1, ![64]⟩

abbrev nBuf : Space → Nat
  | .hbm => 3
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S65536x64x64, .f32⟩
  | .hbm, ⟨2, _⟩ => ⟨S1x64, .f32⟩
  | .local _ .vmem, ⟨0, _⟩ => ⟨S512x64, .f32⟩
  | .local _ .vmem, ⟨1, _⟩ => ⟨S512x64, .f32⟩
  | .local _ .vmem, ⟨2, _⟩ => ⟨S512x64x64, .f32⟩
  | .local _ .vmem, ⟨3, _⟩ => ⟨S512x64x64, .f32⟩
  | .local _ .vmem, ⟨4, _⟩ => ⟨S1x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x64_S1x64_0_0 : ∀ a, (![0, 0] : Fin 2 → Nat) a + S1x64.size a ≤ S1x64.size a
  h_S1x64 : 0 < S1x64.numel
  inb_S512x64_S512x64_0_0 : ∀ a, (![0, 0] : Fin 2 → Nat) a + S512x64.size a ≤ S512x64.size a
  h_S512x64 : 0 < S512x64.numel
  inb_S512x64x64_S512x64x64_0_0_0 : ∀ a, (![0, 0, 0] : Fin 3 → Nat) a + S512x64x64.size a ≤ S512x64x64.size a
  h_S512x64x64 : 0 < S512x64x64.numel
  shapeCasts_S512x64_S512x1x64 : S512x64.ShapeCasts S512x1x64
  broadcasts_S512x1x64_S512x64x64 : S512x1x64.Broadcasts S512x64x64
  reduces_S512x64x64_S512x64 : S512x64x64.Reduces [2] S512x64
  shapeCasts_S1x64_S1x64 : S1x64.ShapeCasts S1x64
  reduces_S512x64_S64 : S512x64.Reduces [0] S64
  shapeCasts_S64_S1x64 : S64.ShapeCasts S1x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64x64.size a ≤ S65536x64x64.size a
  hwx0_1 : ∀ i : grid0.Coords, EltTy.bits .f32 = 32 ∨ (Rect.block (s := S65536x64x64) S512x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x64x64 : Shape := ⟨3, ![65536, 64, 64]⟩
abbrev S65536x1x64 : Shape := ⟨3, ![65536, 1, 64]⟩
abbrev S_ : Shape := ⟨0, ![]⟩
abbrev S64 : Shape := ⟨1, ![64]⟩
abbrev S1x64 : Shape := ⟨2, ![1, 64]⟩

abbrev nBuf : Space → Nat
  | .hbm => 17
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x64x64, .f32⟩
  | .hbm, ⟨2, _⟩ => ⟨S65536x1x64, .f32⟩
  | .hbm, ⟨3, _⟩ => ⟨S65536x64x64, .f32⟩
  | .hbm, ⟨4, _⟩ => ⟨S65536x64x64, .f32⟩
  | .hbm, ⟨5, _⟩ => ⟨S65536x64x64, .f32⟩
  | .hbm, ⟨6, _⟩ => ⟨S_, .f32⟩
  | .hbm, ⟨7, _⟩ => ⟨S65536x64, .f32⟩
  | .hbm, ⟨8, _⟩ => ⟨S_, .f32⟩
  | .hbm, ⟨9, _⟩ => ⟨S65536x64, .f32⟩
  | .hbm, ⟨10, _⟩ => ⟨S65536x64, .f32⟩
  | .hbm, ⟨11, _⟩ => ⟨S_, .f32⟩
  | .hbm, ⟨12, _⟩ => ⟨S65536x64, .f32⟩
  | .hbm, ⟨13, _⟩ => ⟨S65536x64, .f32⟩
  | .hbm, ⟨14, _⟩ => ⟨S_, .f32⟩
  | .hbm, ⟨15, _⟩ => ⟨S64, .f32⟩
  | .hbm, ⟨16, _⟩ => ⟨S1x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S65536x64_S65536x1x64_0_2 : S65536x64.BroadcastsInDim S65536x1x64 (![0, 2] : Fin 2 → Fin S65536x1x64.rank)
  bcast_S65536x1x64_S65536x64x64_0_1_2 : S65536x1x64.BroadcastsInDim S65536x64x64 (![0, 1, 2] : Fin 3 → Fin S65536x64x64.rank)
  reducesTo_S65536x64x64_S65536x64_d2 : S65536x64x64.ReducesTo [2] S65536x64
  h_S_ : 0 < S_.numel
  bcast_S_S65536x64 : S_.BroadcastsInDim S65536x64 (![] : Fin 0 → Fin S65536x64.rank)
  reducesTo_S65536x64_S64_d0 : S65536x64.ReducesTo [0] S64
  shapeCasts_S64_S1x64 : S64.ShapeCasts S1x64

variable [Facts₀]

class Facts : Prop extends Facts₀ where

variable [Facts]
-- ==== Proof.Spec.lean ====
/-
  The mathematics both programs compute, stated once over the two argument arrays read as extended reals.

  For a batch row `n` (of 65536) and an output column `q` (of 64) the row's term is
      ℓ(n, q) = (−½) · Σ_{j < 64} (x[n, j] − μ[n, q, j])² − C,
  the log-density of `x[n, ·]` under a unit-covariance Gaussian centred at `μ[n, q, ·]`, with the two float words
  `−½` and `C` kept as words (both programs carry the same two). The result at column `q` is the sum of ℓ(n, q)
  over all rows `n`.

  The only law needed to join the two programs is that a sum over 65536 = 128 · 512 rows is the sum, over 128
  consecutive blocks, of each block's sum over its 512 rows. Addition of extended reals is commutative and
  associative, so this holds with no finiteness assumption.
-/
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.Spec

open Idealize.ShloMosaic Idealize.ShloMosaic.ValueIdx

/-- A sum over `B · K` consecutive naturals, cut into `K` consecutive blocks of `B`. -/
theorem sum_range_blocks {β : Type*} [AddCommMonoid β] (f : ℕ → β) (B : ℕ) :
    ∀ K : ℕ, ∑ s ∈ Finset.range K, ∑ r ∈ Finset.range B, f (B * s + r) = ∑ n ∈ Finset.range (B * K), f n
  | 0 => by simp
  | K + 1 => by
    rw [Finset.sum_range_succ, sum_range_blocks f B K, Nat.mul_succ, Finset.sum_range_add]

/-- The term of batch row `n` at column `q`: `(−½) · Σ_j (x[n, j] − μ[n, q, j])² − C`. -/
def rowTerm (x : (⟨2, ![65536, 64]⟩ : Shape).Idx → EReal) (mu : (⟨3, ![65536, 64, 64]⟩ : Shape).Idx → EReal)
    (n : Fin 65536) (q : Fin 64) : EReal :=
  Ideal.ofBits .f32 0xBF000000#32
      * (∑ j : Fin 64, (x (ix2 n j) - mu (ix3 n q j)) * (x (ix2 n j) - mu (ix3 n q j)))
    - Ideal.ofBits .f32 0x426B3F8E#32

/-- The result at column `q`: the rows' terms summed over the whole batch. -/
def total (x : (⟨2, ![65536, 64]⟩ : Shape).Idx → EReal) (mu : (⟨3, ![65536, 64, 64]⟩ : Shape).Idx → EReal)
    (q : Fin 64) : EReal :=
  ∑ n : Fin 65536, rowTerm x mu n q

/-- The row's term with the row given as a natural number (zero past the batch, where it is never read). -/
def rowAt (x : (⟨2, ![65536, 64]⟩ : Shape).Idx → EReal) (mu : (⟨3, ![65536, 64, 64]⟩ : Shape).Idx → EReal)
    (n : ℕ) (q : Fin 64) : EReal :=
  if h : n < 65536 then rowTerm x mu ⟨n, h⟩ q else 0

theorem rowAt_of_lt (x : (⟨2, ![65536, 64]⟩ : Shape).Idx → EReal) (mu : (⟨3, ![65536, 64, 64]⟩ : Shape).Idx → EReal)
    (n : ℕ) (h : n < 65536) (q : Fin 64) : rowAt x mu n q = rowTerm x mu ⟨n, h⟩ q := dif_pos h

/-- The 128 blocks of 512 rows, each summed and the block sums added, give the whole batch's sum. -/
theorem blocks_total (x : (⟨2, ![65536, 64]⟩ : Shape).Idx → EReal) (mu : (⟨3, ![65536, 64, 64]⟩ : Shape).Idx → EReal)
    (q : Fin 64) :
    ∑ s ∈ Finset.range 128, ∑ r : Fin 512, rowAt x mu (512 * s + r.val) q = total x mu q := by
  have h1 : ∀ s : ℕ, ∑ r : Fin 512, rowAt x mu (512 * s + r.val) q
      = ∑ r ∈ Finset.range 512, rowAt x mu (512 * s + r) q :=
    fun s => Fin.sum_univ_eq_sum_range (fun r => rowAt x mu (512 * s + r) q) 512
  rw [Finset.sum_congr rfl fun s _ => h1 s, sum_range_blocks (fun n => rowAt x mu n q) 512 128]
  show ∑ n ∈ Finset.range 65536, rowAt x mu n q = total x mu q
  rw [← Fin.sum_univ_eq_sum_range (fun n => rowAt x mu n q) 65536]
  exact Finset.sum_congr rfl fun n _ => rowAt_of_lt x mu n.val n.isLt q

end Cert.Spec

end
-- ==== Proof.RefSide.lean ====
/-
  The reference program read at one output index: its result at column `q` is the whole batch's sum of the rows'
  terms. The host computes `0 + Σ_n ((−½) · (0 + Σ_j (x[n, j] − μ[n, q, j])²) − C)`; the two leading zeros are the
  reductions' initial values and vanish in the extended reals.
-/
import proofs.«163476_j69681549410424_1_alg».proof.Proof.Gen.ReferenceIdeal.Read
import proofs.«163476_j69681549410424_1_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx

/-- Row `n`, column `q` of the per-row stage is the row's term. -/
theorem row_apply (x : (⟨S65536x64, .f32⟩ : BufTy).Contents (Elt Ideal)) (mu : (⟨S65536x64x64, .f32⟩ : BufTy).Contents (Elt Ideal))
    (n : Fin 65536) (q : Fin 64) :
    val_main_v8 (F := Ideal) x mu (ix2 n q) = Cert.Spec.rowTerm x mu n q := by
  have e4 : ∀ j : Fin 64, idx_main_v4 (ix2 n q) j = ix3 n q j := fun j =>
    funext fun a => Fin.ext (by match a with | ⟨0, _⟩ => rfl | ⟨1, _⟩ => rfl | ⟨2, _⟩ => rfl)
  have e1 : ∀ j : Fin 64, idx_main_v0 (idx_main_v1 (ix3 n q j)) = ix2 n j := fun j =>
    funext fun a => Fin.ext (by match a with | ⟨0, _⟩ => rfl | ⟨1, _⟩ => rfl)
  rw [val_main_v8_apply, val_main_v6_apply, val_main_v5_apply, val_main_cst_0_apply, val_main_v7_apply,
    val_main_cst_1_apply, val_main_v4_apply, val_main_cst_apply]
  unfold Cert.Spec.rowTerm
  show Ideal.ofBits .f32 0xBF000000#32
      * (Ideal.ofBits .f32 0x00000000#32 + ∑ k : Fin 64, val_main_v3 x mu (idx_main_v4 (ix2 n q) k))
    - Ideal.ofBits .f32 0x426B3F8E#32 = _
  rw [Ideal.ofBits_zero_f32, zero_add]
  refine congrArg (fun z => Ideal.ofBits .f32 0xBF000000#32 * z - Ideal.ofBits .f32 0x426B3F8E#32)
    (Finset.sum_congr rfl fun j _ => ?_)
  rw [e4, val_main_v3_apply, val_main_v2_apply, val_main_v1_apply, val_main_v0_apply, e1]
  rfl

/-- The reference's result at `(0, q)` is the whole batch's sum at column `q`. -/
theorem result_apply (x : (⟨S65536x64, .f32⟩ : BufTy).Contents (Elt Ideal)) (mu : (⟨S65536x64x64, .f32⟩ : BufTy).Contents (Elt Ideal))
    (u : Fin 1) (q : Fin 64) :
    val_main_v10 (F := Ideal) x mu (ix2 u q) = Cert.Spec.total x mu q := by
  have hu : u.val = 0 := by have := u.isLt; omega
  have e9 : ∀ n : Fin 65536, idx_main_v9 (idx_main_v10 (ix2 u q)) n = ix2 n q := fun n =>
    funext fun a => Fin.ext (by
      match a with
      | ⟨0, _⟩ => rfl
      | ⟨1, _⟩ => show u.val * 64 + q.val = q.val; omega)
  rw [val_main_v10_apply, val_main_v9_apply, val_main_cst_2_apply]
  show Ideal.ofBits .f32 0x00000000#32 + ∑ k : Fin 65536, val_main_v8 x mu (idx_main_v9 (idx_main_v10 (ix2 u q)) k) = _
  rw [Ideal.ofBits_zero_f32, zero_add]
  unfold Cert.Spec.total
  exact Finset.sum_congr rfl fun n _ => by rw [e9, row_apply]

end Cert.ReferenceIdeal.RefValue

end
-- ==== Proof.KernelStep.lean ====
/-
  The body's arithmetic at one output index. From a block of 512 rows of `x` and of `μ` and the output block's
  previous contents `acc`, the body stores, at column `q`,
      acc[0, q] + Σ_{r < 512} ((−½) · Σ_{j < 64} (x[r, j] − μ[r, q, j])² − C):
  each row of `x` is laid along a new middle axis and repeated over the 64 columns, the squared differences are
  summed over the last axis, scaled and shifted, and the 512 rows' terms are summed into one row of 64.
-/
import proofs.«163476_j69681549410424_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-- The index of a column `q` with row `r` put back on the summed row axis is `(r, q)`. -/
theorem lift_rows (h : S512x64.Reduces [0] S64) (q : Fin 64) (r : Fin (S512x64.size 0)) :
    h.lift (ix1 q) r = ix2 (⟨r.val, r.isLt⟩ : Fin 512) q := by
  funext c; apply Fin.ext
  fin_cases c <;> rfl

/-- The index `(r, q)` with `j` put back on the summed last axis is `(r, q, j)`. -/
theorem lift_lanes (h : S512x64x64.Reduces [2] S512x64) (r : Fin 512) (q : Fin 64) (j : Fin (S512x64x64.size 2)) :
    h.lift (ix2 r q) j = ix3 r q (⟨j.val, j.isLt⟩ : Fin 64) := by
  funext c; apply Fin.ext
  fin_cases c <;> rfl

/-- A row of `x` given a unit middle axis and repeated along it reads, at `(r, q, j)`, `x[r, j]` whatever `q`. -/
theorem bcast_rows (x0 : Vec Ideal S512x64 .f32) (r : Fin 512) (q j : Fin 64) :
    broadcastTo S512x64x64 (shapeCast S512x1x64 x0 shapeCasts_S512x64_S512x1x64) broadcasts_S512x1x64_S512x64x64 (ix3 r q j)
      = x0 (ix2 r j) := by
  refine (broadcastTo_apply _ broadcasts_S512x1x64_S512x64x64 (ix3 r q j) (ix3 r (0 : Fin 1) j)
    (fun a => by fin_cases a <;> rfl)).trans ?_
  refine shapeCast_apply x0 shapeCasts_S512x64_S512x1x64 (ix3 r (0 : Fin 1) j) (ix2 r j) ?_
  rw [Shape.rowMajor_val_two, Shape.rowMajor_val_three]
  show r.val * 64 + j.val = (r.val * 1 + 0) * 64 + j.val
  omega

/-- The stored value at `(0, q)`: the previous contents plus the block's 512 row terms at column `q`. -/
theorem pay2_apply (x0 : Vec Ideal S512x64 .f32) (x1 : Vec Ideal S512x64x64 .f32) (acc : Vec Ideal S1x64 .f32)
    (u : Fin 1) (q : Fin 64) :
    k0_pay2 (F := Ideal) x0 x1 acc (ix2 u q)
      = acc (ix2 u q) + ∑ r : Fin 512, (Ideal.ofBits .f32 0xBF000000#32
          * (∑ j : Fin 64, (x0 (ix2 r j) - x1 (ix3 r q j)) * (x0 (ix2 r j) - x1 (ix3 r q j)))
          - Ideal.ofBits .f32 0x426B3F8E#32) := by
  unfold k0_pay2
  dsimp only
  rw [addf_apply, shapeCast_self]
  refine congrArg (acc (ix2 u q) + ·) ?_
  rw [shapeCast_a_1a_apply]
  refine (Ideal.multiReduction_add_single _ _ _ _ _ (ix1 q)).trans ?_
  refine Finset.sum_congr rfl fun r _ => ?_
  rw [lift_rows, subf_apply, mulf_apply, broadcast_apply, broadcast_apply]
  refine congrArg (fun z => Ideal.ofBits .f32 0xBF000000#32 * z - Ideal.ofBits .f32 0x426B3F8E#32) ?_
  refine (Ideal.multiReduction_add_single _ _ _ _ _ (ix2 _ q)).trans ?_
  refine Finset.sum_congr rfl fun j _ => ?_
  rw [lift_lanes, mulf_apply, subf_apply, bcast_rows]
  rfl

/-- The reset's payload is the zero block. -/
theorem pay1_apply (i : S1x64.Idx) : k0_pay1 (F := Ideal) i = 0 := by
  unfold k0_pay1
  exact Ideal.ofBits_zero_f32

end Cert.KernelIdeal.Step

end
-- ==== Proof.KernelBlocks.lean ====
/-
  The kernel's input blocks as pieces of the argument arrays. At grid point `t` (of 128) the first window stages rows
  `512·t … 512·t + 511` of `x` and the second the same rows of `μ`; so the row a block calls `r` is batch row
  `512·t + r`, and the block's part of the result is the sum of those 512 rows' terms.
-/
import proofs.«163476_j69681549410424_1_alg».proof.Proof.Gen.KernelIdeal.Value
import proofs.«163476_j69681549410424_1_alg».proof.Proof.Spec
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ)

/-- The two argument arrays, as launched. -/
abbrev xarr (c : Dev nD) : Vec Ideal S65536x64 .f32 := m ((c : Thread nD τ).loc main_arg0)
abbrev marr (c : Dev nD) : Vec Ideal S65536x64x64 .f32 := m ((c : Thread nD τ).loc main_arg1)

/-- The two input blocks at grid point `t`. -/
abbrev xblk (c : Dev nD) (t : Fin cfg0.N) : Vec Ideal S512x64 .f32 := iblk m c 0 t
abbrev mblk (c : Dev nD) (t : Fin cfg0.N) : Vec Ideal S512x64x64 .f32 := iblk m c 1 t

/-- Point `t`'s block of `x` is block-row `t`, block-column 0. -/
theorem idx0 : ∀ t : Fin cfg0.N, win0_0.index t (0 : Fin 2) = t.val ∧ win0_0.index t (1 : Fin 2) = 0 :=
  (by decide +kernel : ∀ t : Fin grid0.N, _)

/-- Point `t`'s block of `μ` is block `(t, 0, 0)`. -/
theorem idx1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- Row `r` of point `t`'s block of `x` is batch row `512·t + r`. -/
theorem xblk_apply (c : Dev nD) (t : Fin cfg0.N) (r : Fin 512) (j : Fin 64) (hn : 512 * t.val + r.val < 65536) :
    xblk m c t (ix2 r j) = xarr m c (ix2 ⟨512 * t.val + r.val, hn⟩ j) := by
  unfold xblk iblk
  rw [View.read_apply]
  show V m c main_arg0 _ = m ((c : Thread nD τ).loc main_arg0) _
  unfold V
  congr 1
  funext a
  apply Fin.ext
  match a with
  | ⟨0, _⟩ => show win0_0.index t 0 * 512 + 1 * r.val = 512 * t.val + r.val; rw [(idx0 t).1]; omega
  | ⟨1, _⟩ => show win0_0.index t 1 * 64 + 1 * j.val = j.val; rw [(idx0 t).2]; omega

/-- Row `r` of point `t`'s block of `μ` is batch row `512·t + r`. -/
theorem mblk_apply (c : Dev nD) (t : Fin cfg0.N) (r : Fin 512) (q j : Fin 64) (hn : 512 * t.val + r.val < 65536) :
    mblk m c t (ix3 r q j) = marr m c (ix3 ⟨512 * t.val + r.val, hn⟩ q j) := by
  unfold mblk iblk
  rw [View.read_apply]
  show V m c main_arg1 _ = m ((c : Thread nD τ).loc main_arg1) _
  unfold V
  congr 1
  funext a
  apply Fin.ext
  match a with
  | ⟨0, _⟩ => show win0_1.index t 0 * 512 + 1 * r.val = 512 * t.val + r.val; rw [(idx1 t).1]; omega
  | ⟨1, _⟩ => show win0_1.index t 1 * 64 + 1 * q.val = q.val; rw [(idx1 t).2.1]; omega
  | ⟨2, _⟩ => show win0_1.index t 2 * 64 + 1 * j.val = j.val; rw [(idx1 t).2.2]; omega

/-- The term the body forms from row `r` of point `t`'s blocks is batch row `512·t + r`'s term. -/
theorem block_row (c : Dev nD) (t : Fin cfg0.N) (r : Fin 512) (q : Fin 64) :
    Ideal.ofBits .f32 0xBF000000#32
        * (∑ j : Fin 64, (xblk m c t (ix2 r j) - mblk m c t (ix3 r q j)) * (xblk m c t (ix2 r j) - mblk m c t (ix3 r q j)))
      - Ideal.ofBits .f32 0x426B3F8E#32
      = Cert.Spec.rowAt (xarr m c) (marr m c) (512 * t.val + r.val) q := by
  have hN : t.val < 128 := lt_of_lt_of_eq t.isLt (show cfg0.N = 128 from N_0)
  have hn : 512 * t.val + r.val < 65536 := by have := r.isLt; omega
  rw [Cert.Spec.rowAt_of_lt _ _ _ hn]
  unfold Cert.Spec.rowTerm
  refine congrArg (fun z => Ideal.ofBits .f32 0xBF000000#32 * z - Ideal.ofBits .f32 0x426B3F8E#32)
    (Finset.sum_congr rfl fun j _ => ?_)
  rw [xblk_apply m c t r j hn, mblk_apply m c t r q j hn]

end Cert.KernelIdeal.Blocks

end
-- ==== Proof.KernelValue.lean ====
/-
  What the kernel leaves in its result array, at one index. The output block never moves: point 0 resets it to zero
  and adds its block's part, every later point adds its own part to what the point before left, and the last point's
  contents are written back. So the array ends holding, at column `q`,
      0 + Σ_{t < 128} Σ_{r < 512} ℓ(512·t + r, q),
  the 128 blocks' sums added in point order, which is the whole batch's sum.
-/
import proofs.«163476_j69681549410424_1_alg».proof.Proof.Gen.KernelIdeal.Value
import proofs.«163476_j69681549410424_1_alg».proof.Proof.KernelStep
import proofs.«163476_j69681549410424_1_alg».proof.Proof.KernelBlocks
import proofs.«163476_j69681549410424_1_alg».proof.Proof.Spec

noncomputable section

namespace Cert.KernelIdeal.Folded

open Cert.KernelIdeal Cert.KernelIdeal.Gen Cert.KernelIdeal.Value Cert.KernelIdeal.Blocks Cert.KernelIdeal.Step
  Idealize.ShloMosaic Idealize.ShloMosaic.TcCoe Idealize.ShloMosaic.ValueIdx Idealize.SL.Sem

variable (m : (ℓ : Loc nD τ sig) → Buf (Elt Ideal) ℓ)

/-- Block `s`'s part of the result at an index of the output block: its 512 rows' terms at that column, summed. -/
def blockSum (c : Dev nD) (s : ℕ) (i : S1x64.Idx) : EReal :=
  ∑ r : Fin 512, Cert.Spec.rowAt (xarr m c) (marr m c) (512 * s + r.val) ⟨(i 1).val, (i 1).isLt⟩

/-- What the body stores at point `t` over contents `acc`: `acc` plus block `t`'s part. -/
theorem body_apply (c : Dev nD) (t : Fin cfg0.N) (acc : Vec Ideal S1x64 .f32) (i : S1x64.Idx) :
    k0_pay2 (F := Ideal) (xblk m c t) (mblk m c t) acc i = acc i + blockSum m c t.val i := by
  obtain ⟨u, q, rfl⟩ : ∃ (u : Fin 1) (q : Fin 64), i = ix2 u q := ⟨i 0, i 1, eq_ix2 i⟩
  refine (pay2_apply (xblk m c t) (mblk m c t) acc u q).trans ?_
  refine congrArg (acc (ix2 u q) + ·) (Finset.sum_congr rfl fun r _ => ?_)
  exact block_row m c t r q

/-- The fold of the whole run, at an index: zero plus the 128 blocks' parts. -/
theorem fold_apply (c : Dev nD) (h : 0 + 127 < cfg0.N) (i : S1x64.Idx) :
    Pipeline.accAt (reset2 m c) (step2 m c) 0 127 h i
      = (0 : EReal) + ∑ s ∈ Finset.range (127 + 1), blockSum m c (0 + s) i := by
  refine Pipeline.accAt_add_apply (reset2 m c) (step2 m c) (fun _ => (0 : EReal)) (blockSum m c) 0 127 ?_ ?_ 127 le_rfl h i
  · intro h0 i
    unfold reset2
    refine (body_apply m c ⟨0, h0⟩ (k0_pay1 (F := Ideal)) i).trans ?_
    rw [pay1_apply]
  · intro n hn acc i _ _
    unfold step2
    exact body_apply m c ⟨n, hn⟩ acc i

/-- The 128 blocks' parts, added up, are the whole batch's sum. -/
theorem blocks_sum (c : Dev nD) (u : Fin 1) (q : Fin 64) :
    ∑ s ∈ Finset.range (127 + 1), blockSum m c (0 + s) (ix2 u q) = Cert.Spec.total (xarr m c) (marr m c) q := by
  rw [← Cert.Spec.blocks_total (xarr m c) (marr m c) q]
  refine Finset.sum_congr rfl fun s _ => ?_
  rw [Nat.zero_add]
  rfl

/-- The result array ends holding, at `(0, q)`, the whole batch's sum at column `q`. -/
theorem G2_apply (c : Dev nD) (u : Fin 1) (q : Fin 64) :
    G2 (F := Ideal) m c (ix2 u q) = Cert.Spec.total (xarr m c) (marr m c) q := by
  have hN : cfg0.N = 128 := N_0
  have hu : u.val = 0 := by have := u.isLt; omega
  have hq : q.val < 64 := q.isLt
  have hr : run2Of (ix2 u q) = 0 := by
    show 1 * (u.val / 1 - 0) + 1 * (q.val / 64 - 0) = 0
    omega
  have hl : loc2Of (ix2 u q) = ix2 u q := funext fun a => Fin.ext (by
    match a with
    | ⟨0, _⟩ => show u.val % 1 = u.val; omega
    | ⟨1, _⟩ => show q.val % 64 = q.val; omega)
  have h127 : 0 + 127 < cfg0.N := by rw [hN]; decide
  have e : ∀ (b : ℕ) (hb : b + 127 < cfg0.N), b = 0 →
      Pipeline.accAt (reset2 m c) (step2 m c) b 127 hb = Pipeline.accAt (reset2 m c) (step2 m c) 0 127 h127 := by
    intro b hb h0; subst h0; rfl
  unfold G2
  rw [dif_pos (by rw [hr]; exact h127), hl, e _ _ (by rw [hr]), fold_apply m c h127, zero_add]
  exact blocks_sum m c u q

end Cert.KernelIdeal.Folded

end
-- ==== Proof.lean ====
/-
  The kernel sums, over a batch of 65536 rows, the unit-covariance Gaussian log-density term
      ℓ(n, q) = (−½) · Σ_{j < 64} (x[n, j] − μ[n, q, j])² − C
  into one row of 64 columns. It walks the batch in 128 blocks of 512 rows, keeping the output block in place: the
  first grid point zeroes it, every point adds its block's column sums, and the last point's contents are written
  back. The reference forms ℓ for the whole batch at once and sums over the batch axis.

  Over the extended reals both results at column `q` are Σ_n ℓ(n, q): the kernel's is the 128 block sums added in
  order (Proof/KernelValue.lean, over the body's arithmetic read at an index in Proof/KernelStep.lean and the blocks
  read as rows of the arrays in Proof/KernelBlocks.lean), the reference's is the one sum with two zero initial
  values dropped (Proof/RefSide.lean), and a sum over 128 · 512 consecutive rows is the sum of its 128 blocks' sums
  (Proof/Spec.lean), by commutativity and associativity of addition alone; no finiteness of the inputs is used.
  The ideal pass rewrote nothing, so the idealization claim is trivial; the frames are the generated runs.
-/
import proofs.«163476_j69681549410424_1_alg».proof.Defs
import proofs.«163476_j69681549410424_1_alg».proof.Proof.Gen.Kernel.Frame
import proofs.«163476_j69681549410424_1_alg».proof.Proof.Gen.KernelIdeal.Value
import proofs.«163476_j69681549410424_1_alg».proof.Proof.Gen.Pre_finite_inputs
import proofs.«163476_j69681549410424_1_alg».proof.Proof.Gen.ReferenceIdeal.Run
import proofs.«163476_j69681549410424_1_alg».proof.Proof.Gen.ReferenceIdeal.Read
import proofs.«163476_j69681549410424_1_alg».proof.Proof.RefSide
import proofs.«163476_j69681549410424_1_alg».proof.Proof.KernelValue
import Idealize.ShloMosaic.Adequacy
import Idealize.ShloMosaic.Init

noncomputable section

namespace Cert.Proof

open Idealize.ShloMosaic Idealize.ShloMosaic.ValueIdx Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with the whole batch's sum in every column. -/
theorem algebraic_KernelIdeal_ReferenceIdeal : algebraic_KernelIdeal_ReferenceIdeal := by
  intro m ρ m' ρ' _ hagree
  refine ⟨fun c => Cert.KernelIdeal.Value.G2 (F := Ideal) m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v10_eq]
  funext i
  obtain ⟨u, q, rfl⟩ : ∃ (u : Fin 1) (q : Fin 64), i = ix2 u q := ⟨i 0, i 1, eq_ix2 i⟩
  rw [Cert.ReferenceIdeal.RefValue.result_apply]
  exact (Cert.KernelIdeal.Folded.G2_apply m c u q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
